-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S512x256 : Shape := ⟨2, ![512, 256]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S64x2048 .f32) (main_arg1 : FVec F S512x256 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S64x2048 : Shape := ⟨2, ![64, 2048]⟩
abbrev S512x256 : Shape := ⟨2, ![512, 256]⟩
abbrev S64x2048x256 : Shape := ⟨3, ![64, 2048, 256]⟩
abbrev S32x256 : Shape := ⟨2, ![32, 256]⟩
abbrev S64x256x256 : Shape := ⟨3, ![64, 256, 256]⟩
abbrev S32x1x256 : Shape := ⟨3, ![32, 1, 256]⟩
abbrev S32x8x256 : Shape := ⟨3, ![32, 8, 256]⟩
abbrev S256x256 : Shape := ⟨2, ![256, 256]⟩
abbrev S1x256x256 : Shape := ⟨3, ![1, 256, 256]⟩

abbrev nBuf : Space → Nat
  | .hbm => 3
  | .vmem => 4
  | .smem => 0
  | _ => 0

abbrev bufTy : (tb : Table) → Fin (tcTables nBuf tb) → BufTy
  | .hbm, ⟨0, _⟩ => ⟨S64x2048, .f32⟩
  | .hbm, ⟨1, _⟩ => ⟨S512x256, .f32⟩
  | .hbm, ⟨2, _⟩ => ⟨S64x2048x256, .f32⟩
  | .local _ .vmem, ⟨0, _⟩ => ⟨S32x256, .f32⟩
  | .local _ .vmem, ⟨1, _⟩ => ⟨S32x256, .f32⟩
  | .local _ .vmem, ⟨2, _⟩ => ⟨S64x256x256, .f32⟩
  | .local _ .vmem, ⟨3, _⟩ => ⟨S64x256x256, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x256_S32x256_0_0 : ∀ a, (![0, 0] : Fin 2 → Nat) a + S32x256.size a ≤ S32x256.size a
  h_S32x256 : 0 < S32x256.numel
  shapeCasts_S32x256_S32x1x256 : S32x256.ShapeCasts S32x1x256
  shapeCasts_S32x1x256_S32x1x256 : S32x1x256.ShapeCasts S32x1x256
  broadcasts_S32x1x256_S32x8x256 : S32x1x256.Broadcasts S32x8x256
  shapeCasts_S32x8x256_S256x256 : S32x8x256.ShapeCasts S256x256
  shapeCasts_S256x256_S1x256x256 : S256x256.ShapeCasts S1x256x256
  shapeCasts_S1x256x256_S1x256x256 : S1x256x256.ShapeCasts S1x256x256
  broadcasts_S1x256x256_S64x256x256 : S1x256x256.Broadcasts S64x256x256
  inb_S64x256x256_S64x256x256_0_0_0 : ∀ a, (![0, 0, 0] : Fin 3 → Nat) a + S64x256x256.size a ≤ S64x256x256.size a
  h_S64x256x256 : 0 < S64x256x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S512x256.size a
  hwx0_0 : ∀ i : grid0.Coords, EltTy.bits .f32 = 32 ∨ (Rect.block (s := S512x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256x256.size a ≤ S64x2048x256.size a
  hwx0_1 : ∀ i : grid0.Coords, EltTy.bits .f32 = 32 ∨ (Rect.block (s := S64x2048x256) S64x256x256.size (cc0_transform_1 i) (hinb0_1 i)).WholeWords (EltTy.packing .f32)

variable [Facts₀]

abbrev win0_0 : Pipeline.Window sig grid0 :=
  Pipeline.Window.ofSpec (Memref.whole main_arg1) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2048 : Shape := ⟨2, ![64, 2048]⟩
abbrev S512x256 : Shape := ⟨2, ![512, 256]⟩
abbrev S2048 : Shape := ⟨1, ![2048]⟩
abbrev S_ : Shape := ⟨0, ![]⟩
abbrev S2048x1 : Shape := ⟨2, ![2048, 1]⟩
abbrev S2048x256 : Shape := ⟨2, ![2048, 256]⟩
abbrev S1x2048x256 : Shape := ⟨3, ![1, 2048, 256]⟩
abbrev S64x2048x256 : Shape := ⟨3, ![64, 2048, 256]⟩

abbrev nBuf : Space → Nat
  | .hbm => 32
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S512x256, .f32⟩
  | .hbm, ⟨2, _⟩ => ⟨S2048, .i32⟩
  | .hbm, ⟨3, _⟩ => ⟨S_, .i32⟩
  | .hbm, ⟨4, _⟩ => ⟨S_, .i32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048x256, .f32⟩
  | .hbm, ⟨30, _⟩ => ⟨S1x2048x256, .f32⟩
  | .hbm, ⟨31, _⟩ => ⟨S64x2048x256, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x256_S1x2048x256_1_2 : S2048x256.BroadcastsInDim S1x2048x256 (![1, 2] : Fin 2 → Fin S1x2048x256.rank)
  bcast_S1x2048x256_S64x2048x256_0_1_2 : S1x2048x256.BroadcastsInDim S64x2048x256 (![0, 1, 2] : Fin 3 → Fin S64x2048x256.rank)
  gather_S512x256_S2048x1_S2048x256_1_0_n_n_0_1_1256_wf : GatherDims.WF S512x256 S2048x1 S2048x256 [1] [0] [] [0] [] 1 ![1, 256]

variable [Facts₀]

def gather_S512x256_S2048x1_S2048x256_1_0_n_n_0_1_1256 : GatherDims S512x256 S2048x1 S2048x256 where
  offsetDims := [1]
  collapsedSliceDims := [0]
  operandBatchingDims := []
  startIndicesBatchingDims := []
  startIndexMap := [0]
  indexVectorDim := 1
  sliceSizes := ![1, 256]
  wf := gather_S512x256_S2048x1_S2048x256_1_0_n_n_0_1_1256_wf

class Facts : Prop extends Facts₀ where

variable [Facts]
-- ==== Proof.TokenRow.lean ====
/-
  The table lookup both programs compute, stated once.

  Token `s` of a sequence of 2048 belongs to object `s / 8` (eight attributes per object), and every batch row
  carries the same positional rows: entry `(b, s, e)` of the result is entry `e` of row `s / 8` of the table.
  Only the first 256 of the table's 512 rows are ever read.

  The host program reaches the row number through machine integers: jnp's floor division (the truncating
  quotient, lowered by one where dividend and divisor differ in sign and the remainder is not zero) and then
  the wrap of a negative index by the table's height. On the positions `0 … 2047` both corrections are idle —
  a position and the divisor `8` are never of different sign unless the position is `0`, whose remainder is
  `0`, and the quotient is never negative — so the word is the plain quotient `s / 8`. This is checked position
  by position.
-/
import Idealize.ShloMosaic.PureOps.Ideal
import Idealize.ShloMosaic.Lib.ValueIdx
import Idealize.ShloMosaic.Lib.Decide
import Idealize.ShloMosaic.Lib.StableHlo.Predicate

noncomputable section

namespace Cert.TokenRow

open Idealize.ShloMosaic Idealize.ShloMosaic.ValueIdx

/-- The table row token `s` reads: eight consecutive tokens share a row. -/
def rowOf (s : Fin 2048) : Fin 512 := ⟨s.val / 8, by have := s.isLt; omega⟩

theorem rowOf_val (s : Fin 2048) : (rowOf s).val = s.val / 8 := rfl

/-- The result array: entry `(b, s, e)` is the table's entry `e` of row `s / 8`, whatever the batch `b`. -/
def expand {α : Type} (E : (⟨2, ![512, 256]⟩ : Shape).Idx → α) : (⟨3, ![64, 2048, 256]⟩ : Shape).Idx → α :=
  fun i => E (ix2 (rowOf (i 1)) (i 2))

theorem expand_apply {α : Type} (E : (⟨2, ![512, 256]⟩ : Shape).Idx → α) (b : Fin 64) (s : Fin 2048) (e : Fin 256) :
    expand E (ix3 b s e) = E (ix2 (rowOf s) e) := rfl

/-- The sign of a machine integer as a machine integer: `0`, `-1` or `1`. -/
def signWord (x : BitVec 32) : BitVec 32 := if x = 0 then 0 else if x.msb then -1 else 1

/-- The word the host computes for the position word `s`: the floor quotient by eight, a negative one wrapped by 512. -/
def rowWord (s : BitVec 32) : BitVec 32 :=
  let d := IntOp.divsi .host s 8#32
  let q := Scalar.select
    (IntOp.andi (IntOp.cmpi .ne (signWord s) (signWord 8#32)) (IntOp.cmpi .ne (IntOp.remsi .host s 8#32) 0#32))
    (IntOp.subi d 1#32) d
  Scalar.select (IntOp.cmpi .slt q 0#32) (IntOp.addi q 512#32) q

/-- On every position of the sequence the host's word is the plain quotient. -/
theorem rowWord_ofNat : ∀ s : Fin 2048, rowWord (BitVec.ofNat 32 s.val) = BitVec.ofNat 32 (s.val / 8) := by
  decide +kernel

/-- Read as a signed integer and clamped into the table's rows, the host's word names row `s / 8`. -/
theorem rowWord_row (s : Fin 2048) : min (rowWord (BitVec.ofNat 32 s.val)).toInt.toNat (512 - 1) = (rowOf s).val := by
  rw [rowWord_ofNat s, rowOf_val]
  have hs := s.isLt
  rw [StableHlo.Predicate.toInt_ofNat_small (s.val / 8) (by omega)]
  simp only [Int.toNat_natCast]
  omega

end Cert.TokenRow

end
-- ==== Proof.RowRepeat.lean ====
/-
  Each row of a block repeated eight times, then copied to every batch: the kernel body's re-layout read at one entry.

  A block of 32 table rows (256 entries each) is given a unit middle axis, broadcast along it to 8, flattened to 256
  rows — so row `r` of the flattened block is row `r / 8` of the block, since `r = 8 · (r / 8) + r mod 8` and the
  broadcast forgets the `r mod 8` —, given a unit leading axis and broadcast along it to the 64 batches.
-/
import Idealize.ShloMosaic.Lib.Pipeline.Value
import Idealize.ShloMosaic.Lib.ValueIdx

noncomputable section

namespace Cert.RowRepeat

open Idealize.ShloMosaic Idealize.ShloMosaic.ValueIdx

variable {α : Type}

/-- A `[32, 256]` block with a unit middle axis reads, at `(p, u, e)`, the block at `(p, e)`. -/
theorem addMiddleUnit_apply (x : (⟨2, ![32, 256]⟩ : Shape).Idx → α)
    (h : (⟨2, ![32, 256]⟩ : Shape).ShapeCasts ⟨3, ![32, 1, 256]⟩) (p : Fin 32) (u : Fin 1) (e : Fin 256) :
    shapeCast ⟨3, ![32, 1, 256]⟩ x h (ix3 p u e) = x (ix2 p e) :=
  shapeCast_apply x h _ _ (by
    have hu : u.val = 0 := by omega
    rw [Shape.rowMajor_val_three, Shape.rowMajor_val_two]
    show p.val * 256 + e.val = (p.val * 1 + u.val) * 256 + e.val
    rw [hu, Nat.mul_one, Nat.add_zero])

/-- The unit middle axis broadcast to 8 reads, at `(p, q, e)`, the operand at `(p, 0, e)`. -/
theorem repeatMiddle_apply (x : (⟨3, ![32, 1, 256]⟩ : Shape).Idx → α)
    (h : (⟨3, ![32, 1, 256]⟩ : Shape).Broadcasts ⟨3, ![32, 8, 256]⟩) (p : Fin 32) (q : Fin 8) (e : Fin 256) :
    broadcastTo ⟨3, ![32, 8, 256]⟩ x h (ix3 p q e) = x (ix3 p (0 : Fin 1) e) :=
  broadcastTo_apply x h _ _ fun a => match a with | ⟨0, _⟩ => rfl | ⟨1, _⟩ => rfl | ⟨2, _⟩ => rfl

/-- `[32, 8, 256]` flattened to `[256, 256]` reads, at `(r, e)`, the operand at `(r / 8, r mod 8, e)`. -/
theorem flattenRows_apply (x : (⟨3, ![32, 8, 256]⟩ : Shape).Idx → α)
    (h : (⟨3, ![32, 8, 256]⟩ : Shape).ShapeCasts ⟨2, ![256, 256]⟩) (r : Fin 256) (e : Fin 256) :
    shapeCast ⟨2, ![256, 256]⟩ x h (ix2 r e)
      = x (ix3 (⟨r.val / 8, by omega⟩ : Fin 32) (⟨r.val % 8, by omega⟩ : Fin 8) e) :=
  shapeCast_apply x h _ _ (by
    rw [Shape.rowMajor_val_three, Shape.rowMajor_val_two]
    show (r.val / 8 * 8 + r.val % 8) * 256 + e.val = r.val * 256 + e.val
    omega)

/-- A `[256, 256]` array with a unit leading axis reads, at `(u, r, e)`, the array at `(r, e)`. -/
theorem addLeadingUnit_apply (x : (⟨2, ![256, 256]⟩ : Shape).Idx → α)
    (h : (⟨2, ![256, 256]⟩ : Shape).ShapeCasts ⟨3, ![1, 256, 256]⟩) (u : Fin 1) (r : Fin 256) (e : Fin 256) :
    shapeCast ⟨3, ![1, 256, 256]⟩ x h (ix3 u r e) = x (ix2 r e) :=
  shapeCast_apply x h _ _ (by
    have hu : u.val = 0 := by omega
    rw [Shape.rowMajor_val_three, Shape.rowMajor_val_two]
    show r.val * 256 + e.val = (u.val * 256 + r.val) * 256 + e.val
    rw [hu, Nat.zero_mul, Nat.zero_add])

/-- The unit leading axis broadcast to the 64 batches reads, at `(b, r, e)`, the operand at `(0, r, e)`. -/
theorem repeatBatch_apply (x : (⟨3, ![1, 256, 256]⟩ : Shape).Idx → α)
    (h : (⟨3, ![1, 256, 256]⟩ : Shape).Broadcasts ⟨3, ![64, 256, 256]⟩) (b : Fin 64) (r : Fin 256) (e : Fin 256) :
    broadcastTo ⟨3, ![64, 256, 256]⟩ x h (ix3 b r e) = x (ix3 (0 : Fin 1) r e) :=
  broadcastTo_apply x h _ _ fun a => match a with | ⟨0, _⟩ => rfl | ⟨1, _⟩ => rfl | ⟨2, _⟩ => rfl

/-- THE BODY'S RE-LAYOUT AT `(b, r, e)`: entry `e` of row `r / 8` of the block. -/
theorem repeatRows_apply (x : (⟨2, ![32, 256]⟩ : Shape).Idx → α)
    (h1 : (⟨2, ![32, 256]⟩ : Shape).ShapeCasts ⟨3, ![32, 1, 256]⟩)
    (h2 : (⟨3, ![32, 1, 256]⟩ : Shape).ShapeCasts ⟨3, ![32, 1, 256]⟩)
    (h3 : (⟨3, ![32, 1, 256]⟩ : Shape).Broadcasts ⟨3, ![32, 8, 256]⟩)
    (h4 : (⟨3, ![32, 8, 256]⟩ : Shape).ShapeCasts ⟨2, ![256, 256]⟩)
    (h5 : (⟨2, ![256, 256]⟩ : Shape).ShapeCasts ⟨3, ![1, 256, 256]⟩)
    (h6 : (⟨3, ![1, 256, 256]⟩ : Shape).ShapeCasts ⟨3, ![1, 256, 256]⟩)
    (h7 : (⟨3, ![1, 256, 256]⟩ : Shape).Broadcasts ⟨3, ![64, 256, 256]⟩)
    (b : Fin 64) (r : Fin 256) (e : Fin 256) :
    broadcastTo ⟨3, ![64, 256, 256]⟩
        (shapeCast ⟨3, ![1, 256, 256]⟩
          (shapeCast ⟨3, ![1, 256, 256]⟩
            (shapeCast ⟨2, ![256, 256]⟩
              (broadcastTo ⟨3, ![32, 8, 256]⟩
                (shapeCast ⟨3, ![32, 1, 256]⟩ (shapeCast ⟨3, ![32, 1, 256]⟩ x h1) h2) h3) h4) h5) h6) h7 (ix3 b r e)
      = x (ix2 (⟨r.val / 8, by omega⟩ : Fin 32) e) := by
  rw [repeatBatch_apply, shapeCast_self, addLeadingUnit_apply, flattenRows_apply, repeatMiddle_apply, shapeCast_self,
    addMiddleUnit_apply]

end Cert.RowRepeat

end
-- ==== Proof.KernelValue.lean ====
/-
  What the kernel leaves in its result array, index by index.

  The grid has eight points. Point `t` stages rows `32 t … 32 t + 31` of the table and writes back tokens
  `256 t … 256 t + 255` of every batch: token `256 t + r` gets row `r / 8` of the staged block, that is row
  `32 t + r / 8 = (256 t + r) / 8` of the table. So every point writes its block of ONE array, `expand` of the table,
  and the eight blocks tile the sequence axis: the result array ends as `expand` of the table.
-/
import proofs.«106754_j40252433498315_1_alg».proof.Proof.Gen.KernelIdeal.Value
import proofs.«106754_j40252433498315_1_alg».proof.Proof.TokenRow
import proofs.«106754_j40252433498315_1_alg».proof.Proof.RowRepeat

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The body's stored value at `(b, r, e)` is entry `e` of row `r / 8` of the staged block. -/
theorem stored_apply (x0 : Vec F S32x256 .f32) (b : Fin 64) (r : Fin 256) (e : Fin 256) :
    k0_pay1 x0 (ix3 b r e) = x0 (ix2 (⟨r.val / 8, by omega⟩ : Fin 32) e) := by
  unfold k0_pay1
  exact Cert.RowRepeat.repeatRows_apply x0 _ _ _ _ _ _ _ b r e

/-- The printed index maps over the grid: point `t` stages block `t` of the table's rows and writes block `t` of
    the sequence axis, all batches and all entries. -/
theorem index_facts : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0 :=
  (by decide +kernel : ∀ t : Fin grid0.N, _)

/-- WHAT POINT `t` WRITES BACK is block `t` of `expand` of the table as the region finds it. -/
theorem flushed_eq (c : Dev nD) (t : Fin cfg0.N) :
    (dats m 0 c).flushed 1 t = ((cfg0.win 1).blk t).view.read (Elt F) (Cert.TokenRow.expand (V m c main_arg1)) := by
  rw [Cert.KernelIdeal.Value.flushed1]
  unfold out0_1
  rw [View.canon_unit_zero origin3]
  simp only [View.ld_unit_zero (S := S32x256) origin2]
  obtain ⟨e0, e1, e2, e3, e4⟩ := index_facts t
  funext j
  show k0_pay1 (iblk m c 0 t) (ix3 (j 0) (j 1) (j 2)) = Cert.TokenRow.expand (V m c main_arg1) (((cfg0.win 1).blk t).view.emb j)
  refine (stored_apply (F := F) (iblk m c 0 t) (j 0) (j 1) (j 2)).trans ?_
  have hj1 : (j 1).val < 256 := (j 1).isLt
  show V m c main_arg1 (((cfg0.win 0).blk t).view.emb (ix2 (⟨(j 1).val / 8, by omega⟩ : Fin 32) (j 2)))
    = V m c main_arg1 (ix2 (Cert.TokenRow.rowOf ((((cfg0.win 1).blk t).view.emb j) 1)) ((((cfg0.win 1).blk t).view.emb j) 2))
  congr 1
  funext a
  apply Fin.ext
  match a with
  | ⟨0, _⟩ =>
    show win0_0.index t (0 : Fin 2) * 32 + 1 * ((j 1).val / 8) = (win0_1.index t (1 : Fin 3) * 256 + 1 * (j 1).val) / 8
    omega
  | ⟨1, _⟩ =>
    show win0_0.index t (1 : Fin 2) * 256 + 1 * (j 2).val = win0_1.index t (2 : Fin 3) * 256 + 1 * (j 2).val
    omega

/-- An index of the array is in point `t`'s block iff each coordinate is in the block's range on its axis. -/
theorem mem_blk (t : Fin cfg0.N) (i : S64x2048x256.Idx) :
    i ∈ ((cfg0.win 1).blk t).view.set ↔ ∀ a : Fin 3, win0_1.index t a * S64x256x256.size a ≤ (i a).val
      ∧ (i a).val < win0_1.index t a * S64x256x256.size a + S64x256x256.size a := by
  show i ∈ ((View.whole main_v0).slice (win0_1.rect t)).set ↔ _
  rw [View.set_slice_whole, Rect.mem_set_unit]
  exact Iff.rfl

/-- Every index of the array is in some point's block: token `s` is written by point `s / 256`. -/
theorem covered (i : S64x2048x256.Idx) :
    ∃ t : Fin cfg0.N, (cfg0.win 1).flush t = true ∧ i ∈ ((cfg0.win 1).blk t).view.set := by
  have hi0 : (i 0).val < 64 := (i 0).isLt
  have hi1 : (i 1).val < 2048 := (i 1).isLt
  have hi2 : (i 2).val < 256 := (i 2).isLt
  have hN : cfg0.N = 8 := N_0
  let t : Fin cfg0.N := ⟨(i 1).val / 256, by rw [hN]; omega⟩
  obtain ⟨e0, e1, e2, e3, e4⟩ := index_facts t
  have ht : t.val = (i 1).val / 256 := rfl
  refine ⟨t, flush0_1 t, ?_⟩
  rw [mem_blk]
  intro a
  match a with
  | ⟨0, _⟩ => show win0_1.index t (0 : Fin 3) * 64 ≤ (i 0).val ∧ (i 0).val < win0_1.index t (0 : Fin 3) * 64 + 64; omega
  | ⟨1, _⟩ => show win0_1.index t (1 : Fin 3) * 256 ≤ (i 1).val ∧ (i 1).val < win0_1.index t (1 : Fin 3) * 256 + 256; omega
  | ⟨2, _⟩ => show win0_1.index t (2 : Fin 3) * 256 ≤ (i 2).val ∧ (i 2).val < win0_1.index t (2 : Fin 3) * 256 + 256; omega

/-- THE ARRAY after the run is `expand` of the table as launched. -/
theorem final (c : Dev nD) :
    (dats m 0 c).arrAt 1 cfg0.N = Cert.TokenRow.expand (m ((c : Thread nD τ).loc main_arg1)) :=
  (dats m 0 c).arrAt_eq_of_cover 1 (Cert.TokenRow.expand (V m c main_arg1)) (fun t _ => flushed_eq m c t) covered

/-- The frame run re-posted: the result array at `expand` of the table, the arguments unchanged. -/
theorem run : θ_run defs (onTc (τ := τ) (main (F := F))) ⟨m, fun _ => 0, ρ⟩ fun r => ∀ c : Dev nD,
      r.2.mem ((c : Thread nD τ).loc main_v0) = Cert.TokenRow.expand (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.RefRun.lean ====
/-
  The reference program's run, read back.

  Its @main is a straight line of thirty host operations once the two outlined functions (jnp's floor division and
  the `where` it ends in) are written at their call: the positions `0 … 2047`, their floor quotient by eight, the
  wrap of a negative index by the table's height, the gather of the table's rows at those indices, and two
  broadcasts that copy the gathered rows to every batch. Every weakly fair execution ends with the result buffer at
  that composition of the table, the two arguments unchanged.
-/
import proofs.«106754_j40252433498315_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The row index of every token as the host computes it: the positions' floor quotient by eight, then a negative
    index wrapped by 512. -/
def rowWords : IVec S2048 32 :=
  let pos : IVec S2048 32 := iotaInDim S2048 32 0
  let eight : IVec S_ 32 := id (constantI S_ 32 8#32)
  let eights : IVec S2048 32 := broadcastInDim S2048 ![] bcast_S_S2048 eight
  let d : IVec S2048 32 := Host.divsi pos eights
  let differ : IVec S2048 1 := cmpi .ne (signi pos) (broadcastInDim S2048 ![] bcast_S_S2048 (signi eight))
  let inexact : IVec S2048 1 := cmpi .ne (Host.remsi pos (broadcastInDim S2048 ![] bcast_S_S2048 eight))
    (broadcastInDim S2048 ![] bcast_S_S2048 (constantI S_ 32 0#32))
  let q : IVec S2048 32 := select (andi differ inexact) (subi d (broadcastInDim S2048 ![] bcast_S_S2048 (constantI S_ 32 1#32))) d
  select (cmpi .slt q (broadcastInDim S2048 ![] bcast_S_S2048 (constantI S_ 32 0#32)))
    (addi q (broadcastInDim S2048 ![] bcast_S_S2048 (constantI S_ 32 512#32))) q

/-- The reference's result as a function of the table: the rows gathered at `rowWords`, copied to every batch. -/
def refOut (E : FVec F S512x256 .f32) : FVec F S64x2048x256 .f32 :=
  broadcastInDim S64x2048x256 ![0, 1, 2] bcast_S1x2048x256_S64x2048x256_0_1_2
    (broadcastInDim S1x2048x256 ![1, 2] bcast_S2048x256_S1x2048x256_1_2
      (Host.gather gather_S512x256_S2048x1_S2048x256_1_0_n_n_0_1_1256 E
        (broadcastInDim S2048x1 ![0] bcast_S2048_S2048x1_0 rowWords)))

/-- @main's thirty operations in order, the two calls unfolded: `floor_divide(positions, 8)` is sixteen into
    `main_call0`'s buffers and ends in `_where`'s one select into `main_v1`. -/
abbrev ops : List (HloOp τ sig (Elt F)) :=
  [ nullary main_v0 (iotaInDim S2048 32 0),
    nullary main_c (constantI S_ 32 8#32),
    TRef.unary (.of main_c) main_call0.v0 id,
    TRef.unary main_call0.v0 main_call0.v1 (broadcastInDim S2048 ![] bcast_S_S2048),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S2048 ![] bcast_S_S2048),
    TRef.binary main_call0.v3 main_call0.v5 main_call0.v6 (cmpi .ne),
    TRef.unary main_call0.v0 main_call0.v7 (broadcastInDim S2048 ![] bcast_S_S2048),
    TRef.binary (.of main_v0) main_call0.v7 main_call0.v8 Host.remsi,
    TRef.nullary main_call0.c (constantI S_ 32 0#32),
    TRef.unary main_call0.c main_call0.v9 (broadcastInDim S2048 ![] bcast_S_S2048),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S2048 ![] bcast_S_S2048),
    TRef.binary main_call0.v2 main_call0.v12 main_call0.v13 subi,
    TRef.ternary main_call0.v11 main_call0.v13 main_call0.v2 main_call0.call0.v0 select,
    nullary main_c_0 (constantI S_ 32 0#32),
    unary main_c_0 main_v2 (broadcastInDim S2048 ![] bcast_S_S2048 : (⟨S_, .i32⟩ : BufTy).Contents (Elt F) → (⟨S2048, .i32⟩ : BufTy).Contents (Elt F)),
    binary main_v1 main_v2 main_v3 (cmpi .slt : (⟨S2048, .i32⟩ : BufTy).Contents (Elt F) → (⟨S2048, .i32⟩ : BufTy).Contents (Elt F) → (⟨S2048, .i1⟩ : BufTy).Contents (Elt F)),
    nullary main_c_1 (constantI S_ 32 512#32),
    unary main_c_1 main_v4 (broadcastInDim S2048 ![] bcast_S_S2048 : (⟨S_, .i32⟩ : BufTy).Contents (Elt F) → (⟨S2048, .i32⟩ : BufTy).Contents (Elt F)),
    binary main_v1 main_v4 main_v5 (addi : (⟨S2048, .i32⟩ : BufTy).Contents (Elt F) → (⟨S2048, .i32⟩ : BufTy).Contents (Elt F) → (⟨S2048, .i32⟩ : BufTy).Contents (Elt F)),
    ternary main_v3 main_v5 main_v1 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v6 main_v7 (broadcastInDim S2048x1 ![0] bcast_S2048_S2048x1_0 : (⟨S2048, .i32⟩ : BufTy).Contents (Elt F) → (⟨S2048x1, .i32⟩ : BufTy).Contents (Elt F)),
    binary main_arg1 main_v7 main_v8 ((fun x i => Host.gather gather_S512x256_S2048x1_S2048x256_1_0_n_n_0_1_1256 x i) : (⟨S512x256, .f32⟩ : BufTy).Contents (Elt F) → (⟨S2048x1, .i32⟩ : BufTy).Contents (Elt F) → (⟨S2048x256, .f32⟩ : BufTy).Contents (Elt F)),
    unary main_v8 main_v9 (broadcastInDim S1x2048x256 ![1, 2] bcast_S2048x256_S1x2048x256_1_2 : (⟨S2048x256, .f32⟩ : BufTy).Contents (Elt F) → (⟨S1x2048x256, .f32⟩ : BufTy).Contents (Elt F)),
    unary main_v9 main_v10 (broadcastInDim S64x2048x256 ![0, 1, 2] bcast_S1x2048x256_S64x2048x256_0_1_2 : (⟨S1x2048x256, .f32⟩ : BufTy).Contents (Elt F) → (⟨S64x2048x256, .f32⟩ : BufTy).Contents (Elt F)) ]

set_option maxRecDepth 1024 in
/-- @main is that straight line: the functions' definitions unfolded at their calls and the call records at their
    fields, both sides are one chain of host steps once sequencing is reassociated. -/
theorem main_eq (c : Dev nD) : main (F := F) c = seq ops := by
  simp only [main, fn_floor_divide.body, fn_where.body, seq, bind_assoc, pure_bind]

attribute [local irreducible] Host.gather in
set_option maxRecDepth 8192 in
set_option maxHeartbeats 1000000 in
/-- The fold of the operations at the result buffer is `refOut` of the table: each operation's result decides
    whether the buffer read is the one it writes, and the typed references' casts are the identity at these literal
    references. The gather stays folded meanwhile: the equation never looks inside it. -/
theorem out_eq (V : Valuation τ sig (Elt F)) :
    after ops V (main_v10 : DevRef τ sig) = refOut (V (main_arg1 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..⟩

/-- On every device, for any float values, from any memory with zero counters: every weakly fair execution of
    @main terminates with the result at `refOut` of the table as launched, and both arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = refOut (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.RefValue.lean ====
/-
  The reference's result, index by index: it is `expand` of the table.

  Read at `(b, s, e)`, the two closing broadcasts drop the batch, the gather reads entry `e` of the row its index
  for token `s` names — that index read as a signed integer and clamped into the table's rows —, and the index is the
  host's word for position `s`, which is `s / 8`: already a row of the table, so the clamp is idle.
-/
import proofs.«106754_j40252433498315_1_alg».proof.Proof.RefRun
import proofs.«106754_j40252433498315_1_alg».proof.Proof.TokenRow
import proofs.«106754_j40252433498315_1_alg».proof.Proof.LibRowGatherScatter
import Idealize.ShloMosaic.Lib.Pipeline.Value

noncomputable section

namespace Cert.ReferenceIdeal.RefValue

open Cert.ReferenceIdeal Cert.ReferenceIdeal.Gen Idealize.ShloMosaic Idealize.ShloMosaic.ValueIdx
open Cert.ReferenceIdeal.HandRun

variable {F : FTy → Type} [FloatOps F] {α : Type}

/-- The index word at position `i` of the sequence: every operation on the way is elementwise, so the vector's entry
    is the scalar chain at the position's word. -/
theorem rowWords_apply (i : S2048.Idx) : rowWords i = Cert.TokenRow.rowWord (BitVec.ofNat 32 (i 0).val) := by
  unfold rowWords Cert.TokenRow.rowWord Cert.TokenRow.signWord
  simp only [select, andi, cmpi, subi, addi, Host.divsi, Host.remsi, signi, broadcastInDim, constantI, iotaInDim, id]
  rfl

/-- The copy to the 64 batches reads, at `(b, s, e)`, the one batch at `(0, s, e)`. -/
theorem copyBatches_apply (x : (⟨3, ![1, 2048, 256]⟩ : Shape).Idx → α)
    (h : (⟨3, ![1, 2048, 256]⟩ : Shape).BroadcastsInDim ⟨3, ![64, 2048, 256]⟩ ![0, 1, 2])
    (b : Fin 64) (s : Fin 2048) (e : Fin 256) :
    broadcastInDim ⟨3, ![64, 2048, 256]⟩ ![0, 1, 2] h x (ix3 b s e) = x (ix3 (0 : Fin 1) s e) :=
  broadcastInDim_apply ![0, 1, 2] h x (ix3 b s e) (ix3 (0 : Fin 1) s e)
    fun a => match a with | ⟨0, _⟩ => rfl | ⟨1, _⟩ => rfl | ⟨2, _⟩ => rfl

/-- The gathered rows given a unit batch axis read, at `(0, s, e)`, the rows at `(s, e)`. -/
theorem unitBatch_apply (x : (⟨2, ![2048, 256]⟩ : Shape).Idx → α)
    (h : (⟨2, ![2048, 256]⟩ : Shape).BroadcastsInDim ⟨3, ![1, 2048, 256]⟩ ![1, 2])
    (u : Fin 1) (s : Fin 2048) (e : Fin 256) :
    broadcastInDim ⟨3, ![1, 2048, 256]⟩ ![1, 2] h x (ix3 u s e) = x (ix2 s e) :=
  broadcastInDim_apply ![1, 2] h x (ix3 u s e) (ix2 s e) fun a => match a with | ⟨0, _⟩ => rfl | ⟨1, _⟩ => rfl

/-- The index vector as a column reads, at `(s, 0)`, the vector at `s`. -/
theorem column_apply (x : (⟨1, ![2048]⟩ : Shape).Idx → α)
    (h : (⟨1, ![2048]⟩ : Shape).BroadcastsInDim ⟨2, ![2048, 1]⟩ ![0]) (s : Fin 2048) (u : Fin 1) :
    broadcastInDim ⟨2, ![2048, 1]⟩ ![0] h x (ix2 s u) = x (ix1 s) :=
  broadcastInDim_apply ![0] h x (ix2 s u) (ix1 s) fun a => match a with | ⟨0, _⟩ => rfl

/-- The printed gather is a gather of rows. -/
theorem gather_is_rows : gather_S512x256_S2048x1_S2048x256_1_0_n_n_0_1_1256
    = Cert.Gcn.rowGatherDims 512 2048 256 Cert.ReferenceIdeal.Facts₀.gather_S512x256_S2048x1_S2048x256_1_0_n_n_0_1_1256_wf := by
  unfold gather_S512x256_S2048x1_S2048x256_1_0_n_n_0_1_1256 Cert.Gcn.rowGatherDims
  rfl

/-- THE REFERENCE'S RESULT is `expand` of the table. -/
theorem refOut_eq (E : FVec F S512x256 .f32) : refOut E = Cert.TokenRow.expand E := by
  funext i
  obtain ⟨b, s, e, rfl⟩ : ∃ (b : Fin 64) (s : Fin 2048) (e : Fin 256), i = ix3 b s e := ⟨i 0, i 1, i 2, eq_ix3 i⟩
  rw [Cert.TokenRow.expand_apply]
  unfold refOut
  rw [copyBatches_apply, unitBatch_apply, gather_is_rows, Cert.Gcn.gather_rows_apply (by decide)]
  refine congrArg (fun p : Fin 512 => E (ix2 p e)) (Fin.ext ?_)
  show min ((broadcastInDim S2048x1 ![0] bcast_S2048_S2048x1_0 rowWords) (ix2 s (0 : Fin 1))).toInt.toNat (512 - 1)
    = (Cert.TokenRow.rowOf s).val
  rw [column_apply, rowWords_apply]
  exact Cert.TokenRow.rowWord_row s

end Cert.ReferenceIdeal.RefValue

end
-- ==== Proof.lean ====
/-
  The kernel replicates rows of a positional table: entry `(b, s, e)` of its result is entry `e` of row `s / 8` of the
  table, for each of the 64 batches, the 2048 tokens and the 256 entries. No arithmetic on the entries is done by
  either program, so the two results are equal on all extended reals and the inputs' finiteness is never used.

  * The kernel (Proof/KernelValue.lean): grid point `t` stages 32 table rows, repeats each eight times along the
    sequence (Proof/RowRepeat.lean), copies the 256 rows to every batch, and writes back tokens `256 t … 256 t + 255`;
    the eight blocks tile the array, which therefore ends as `expand` of the table (Proof/TokenRow.lean).
  * The reference (Proof/RefRun.lean, Proof/RefValue.lean): the positions' floor quotient by eight, computed in machine
    integers and wrapped where negative, indexes a gather of the table's rows, copied to every batch; on the positions
    `0 … 2047` the index word is `s / 8`, so the result is `expand` of the table too.
  * The three frames: the two kernel programs' are the generated frame runs; the reference's is its run with the result
    dropped. The idealization rewrote nothing, so `preserves` holds trivially.
-/
import proofs.«106754_j40252433498315_1_alg».proof.Defs
import proofs.«106754_j40252433498315_1_alg».proof.Proof.Gen.Kernel
import proofs.«106754_j40252433498315_1_alg».proof.Proof.Gen.Kernel.Skeleton
import proofs.«106754_j40252433498315_1_alg».proof.Proof.Gen.Kernel.Launch
import proofs.«106754_j40252433498315_1_alg».proof.Proof.Gen.Kernel.Points
import proofs.«106754_j40252433498315_1_alg».proof.Proof.Gen.Kernel.Frame
import proofs.«106754_j40252433498315_1_alg».proof.Proof.Gen.KernelIdeal
import proofs.«106754_j40252433498315_1_alg».proof.Proof.Gen.KernelIdeal.Skeleton
import proofs.«106754_j40252433498315_1_alg».proof.Proof.Gen.KernelIdeal.Launch
import proofs.«106754_j40252433498315_1_alg».proof.Proof.Gen.KernelIdeal.Points
import proofs.«106754_j40252433498315_1_alg».proof.Proof.Gen.KernelIdeal.Frame
import proofs.«106754_j40252433498315_1_alg».proof.Proof.Gen.KernelIdeal.Value
import proofs.«106754_j40252433498315_1_alg».proof.Proof.Gen.ReferenceIdeal
import proofs.«106754_j40252433498315_1_alg».proof.Proof.Gen.Pre_finite_inputs
import proofs.«106754_j40252433498315_1_alg».proof.Proof.KernelValue
import proofs.«106754_j40252433498315_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The ideal pass rewrote no operation: nothing to preserve. -/
theorem preserves : Cert.preserves_Kernel_KernelIdeal := trivial

/-- Both programs end with their result at `expand` of the table they were given, and the tables agree. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.refOut_eq, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
